-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : IVec S1600000 32) (main_arg6 : IVec S1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2000x128 : Shape := ⟨2, ![2000, 128]⟩

abbrev nBuf : Space → Nat
  | .hbm => 27
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S50000x128, .f32⟩
  | .hbm, ⟨18, _⟩ => ⟨S1600000x1, .i32⟩
  | .hbm, ⟨19, _⟩ => ⟨S50000x128, .f32⟩
  | .hbm, ⟨20, _⟩ => ⟨S128x128, .f32⟩
  | .hbm, ⟨21, _⟩ => ⟨S128x128, .bf16⟩
  | .hbm, ⟨22, _⟩ => ⟨S128x128, .f32⟩
  | .hbm, ⟨23, _⟩ => ⟨S128x128, .bf16⟩
  | .hbm, ⟨24, _⟩ => ⟨S1x128, .f32⟩
  | .hbm, ⟨25, _⟩ => ⟨S1x128, .f32⟩
  | .hbm, ⟨26, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S50000x128, .f32⟩
  | .hbm, ⟨18, _⟩ => ⟨S1600000x1, .i32⟩
  | .hbm, ⟨19, _⟩ => ⟨S50000x128, .f32⟩
  | .hbm, ⟨20, _⟩ => ⟨S128x128, .f32⟩
  | .hbm, ⟨21, _⟩ => ⟨S50000x128, .f32⟩
  | .hbm, ⟨22, _⟩ => ⟨S1x128, .f32⟩
  | .hbm, ⟨23, _⟩ => ⟨S50000x128, .f32⟩
  | .hbm, ⟨24, _⟩ => ⟨S50000x128, .f32⟩
  | .hbm, ⟨25, _⟩ => ⟨S_, .f32⟩
  | .hbm, ⟨26, _⟩ => ⟨S_, .f32⟩
  | .hbm, ⟨27, _⟩ => ⟨S50000x128, .f32⟩
  | .hbm, ⟨28, _⟩ => ⟨S50000x128, .i1⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S_, .f32⟩
  | .hbm, ⟨41, _⟩ => ⟨S50000x128, .f32⟩
  | .hbm, ⟨42, _⟩ => ⟨S50000x128, .i1⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The function both programs compute, stated once over the extended reals.

  With `H` the neighbourhood aggregate (row `v` of `H` is the sum of the embedding rows `E[src e]` over the edges `e`
  with `dst e = v`), `A₁ = W₁ᵀ`, `A₂ = W₂ᵀ` and `ℓ` the leaky rectifier of slope `f32(0.01)`, entry `(p, q)` of the result is

      ℓ (∑ₖ H[p,k] · A₁[k,q] + b₁[q])  +  ℓ (∑ₖ (E[p,k] · H[p,k]) · A₂[k,q] + b₂[q]).

  The aggregate is one shared term of the arguments (`agg`): a gather of rows at the wrapped source indices followed by
  a scatter-add at the destination indices. Neither program is ever asked what it evaluates to; both apply it to the
  same arguments.
-/
import Idealize.ShloMosaic.Lib.ValueIdx
import Idealize.ShloMosaic.PureOps.Ideal.Laws

noncomputable section

namespace Cert.Spec

open Idealize.ShloMosaic Idealize.ShloMosaic.ValueIdx

abbrev SN : Shape := ⟨2, ![50000, 128]⟩
abbrev SW : Shape := ⟨2, ![128, 128]⟩
abbrev SV : Shape := ⟨1, ![128]⟩
abbrev SE : Shape := ⟨1, ![1600000]⟩
abbrev SE1 : Shape := ⟨2, ![1600000, 1]⟩
abbrev SU : Shape := ⟨2, ![1600000, 128]⟩
abbrev S0 : Shape := ⟨0, ![]⟩

/-- The leaky rectifier on one extended real: `s` where `s ≥ 0`, else `f32(0.01) · s`. -/
def lk (s : EReal) : EReal :=
  Scalar.select (FloatOps.cmpf (F := Ideal) (φ := .f32) .oge s (Ideal.ofBits .f32 0x00000000#32)) s
    (Ideal.ofBits .f32 0x3C23D70A#32 * s)

/-- One entry of the result, at row `p` and column `q`. -/
def entry (E H : FVec Ideal SN .f32) (A1 A2 : FVec Ideal SW .f32) (b1 b2 : FVec Ideal SV .f32)
    (p : Fin 50000) (q : Fin 128) : EReal :=
  lk ((∑ k : Fin 128, H (ix2 p k) * A1 (ix2 k q)) + b1 (ix1 q))
    + lk ((∑ k : Fin 128, (E (ix2 p k) * H (ix2 p k)) * A2 (ix2 k q)) + b2 (ix1 q))

/-- The result array as one function of the embedding table, the aggregate, the two transposed weights and the two
    biases. -/
def G (E H : FVec Ideal SN .f32) (A1 A2 : FVec Ideal SW .f32) (b1 b2 : FVec Ideal SV .f32) : FVec Ideal SN .f32 :=
  fun i => entry E H A1 A2 b1 b2 (i 0) (i 1)

theorem G_apply (E H : FVec Ideal SN .f32) (A1 A2 : FVec Ideal SW .f32) (b1 b2 : FVec Ideal SV .f32)
    (p : Fin 50000) (q : Fin 128) : G E H A1 A2 b1 b2 (ix2 p q) = entry E H A1 A2 b1 b2 p q := rfl

/-- The neighbourhood aggregate as the programs spell it: the source indices wrapped once into range (a negative
    index has the table's height added), the rows gathered, then added into a zero table at the destination indices. -/
def agg (gd : GatherDims SN SE1 SU) (sd : ScatterDims SN SE1 SU) (h0 : S0.BroadcastsInDim SE (![] : Fin 0 → Fin SE.rank))
    (h1 : SE.BroadcastsInDim SE1 (![0] : Fin 1 → Fin SE1.rank)) (h2 : S0.BroadcastsInDim SN (![] : Fin 0 → Fin SN.rank))
    (E : FVec Ideal SN .f32) (src dst : IVec SE 32) : FVec Ideal SN .f32 :=
  Host.scatterAdd sd (broadcastInDim SN ![] h2 (constant (F := Ideal) S0 .f32 0x00000000#32)) (broadcastInDim SE1 ![0] h1 dst)
    (Host.gather gd E (broadcastInDim SE1 ![0] h1
      (select (cmpi .slt src (broadcastInDim SE ![] h0 (constantI S0 32 0#32)))
        (addi src (broadcastInDim SE ![] h0 (constantI S0 32 50000#32))) src)))

end Cert.Spec

end
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.KernelPay.lean ====
/-
  The kernel body's one store, read at an entry of the block. For blocks `e`, `h` of the embedding table and of the
  aggregate (2000 rows each), the two transposed weights `w₁`, `w₂` and the two bias rows `c₁`, `c₂`, entry `(p, q)` of the
  stored value is

      ℓ (∑ₖ h[p,k] · w₁[k,q] + c₁[0,q])  +  ℓ (∑ₖ (e[p,k] · h[p,k]) · w₂[k,q] + c₂[0,q]),

  the narrowing of the left factors to bf16 being the identity on extended reals, each matrix product into a zero
  accumulator the plain sum over the contracted coordinate, and the bias row spread over the rows.
-/
import proofs.«158843_j12524124636045_1_alg».proof.Proof.Gen.KernelIdeal.Skeleton
import proofs.«158843_j12524124636045_1_alg».proof.Proof.Spec
import proofs.«158843_j12524124636045_1_alg».proof.Proof.LibRowOps
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The body's contraction record is the plain rows-by-columns one. -/
theorem dot_plain : dot_S2000x128_S128x128_S2000x128_1_0_0_1_n_n = DotDims.plain 2000 128 128 := rfl

/-- One branch on a block: the product with a weight block into zero, the bias row spread over the rows, the rectifier. -/
def branchV (x : FVec Ideal S2000x128 .bf16) (w : FVec Ideal S128x128 .bf16) (b : FVec Ideal S1x128 .f32) : FVec Ideal S2000x128 .f32 :=
  select
    (cmpf .oge (addf (matmul dot_S2000x128_S128x128_S2000x128_1_0_0_1_n_n none x w (constant S2000x128 .f32 0x00000000#32))
        (broadcastTo S2000x128 b broadcasts_S1x128_S2000x128)) (broadcast S2000x128 (Scalar.ofBits .f32 0x00000000#32)))
    (addf (matmul dot_S2000x128_S128x128_S2000x128_1_0_0_1_n_n none x w (constant S2000x128 .f32 0x00000000#32))
        (broadcastTo S2000x128 b broadcasts_S1x128_S2000x128))
    (mulf (broadcast S2000x128 (Scalar.ofBits .f32 0x3C23D70A#32))
      (addf (matmul dot_S2000x128_S128x128_S2000x128_1_0_0_1_n_n none x w (constant S2000x128 .f32 0x00000000#32))
        (broadcastTo S2000x128 b broadcasts_S1x128_S2000x128)))

/-- The stored value is the sum of the two branches, the first on the aggregate's block, the second on its entrywise
    product with the embedding block. -/
theorem pay_eq (x0 x1 : Vec Ideal S2000x128 .f32) (x2 x4 : Vec Ideal S128x128 .bf16) (x3 x5 : Vec Ideal S1x128 .f32) :
    k0_pay1 (F := Ideal) x0 x1 x2 x4 x3 x5
      = addf (branchV (truncf .bf16 x1 bitsLt_bf16_f32) x2 x3) (branchV (truncf .bf16 (mulf x0 x1) bitsLt_bf16_f32) x4 x5) := by
  unfold k0_pay1 branchV
  simp only [shapeCast_self]

/-- A branch at `(p, q)`. -/
theorem branchV_apply (x : FVec Ideal S2000x128 .bf16) (w : FVec Ideal S128x128 .bf16) (b : FVec Ideal S1x128 .f32)
    (p : Fin 2000) (q : Fin 128) :
    branchV x w b (ix2 p q) = Cert.Spec.lk ((∑ k : Fin 128, x (ix2 p k) * w (ix2 k q)) + b (ix2 (0 : Fin 1) q)) := by
  unfold branchV
  rw [select_apply, cmpf_apply, mulf_apply, addf_apply, broadcast_apply, broadcast_apply]
  have hm : matmul dot_S2000x128_S128x128_S2000x128_1_0_0_1_n_n none x w (constant S2000x128 .f32 0x00000000#32) (ix2 p q)
      = ∑ k : Fin 128, x (ix2 p k) * w (ix2 k q) := Cert.LibRowOps.matmul_plain_zero_apply 2000 128 128 x w p q
  have hb : broadcastTo S2000x128 b broadcasts_S1x128_S2000x128 (ix2 p q) = b (ix2 (0 : Fin 1) q) :=
    broadcastTo_1b_ab_apply b broadcasts_S1x128_S2000x128 p q
  rw [hm, hb]
  rfl

/-- The stored value at `(p, q)`. -/
theorem pay_apply (x0 x1 : Vec Ideal S2000x128 .f32) (x2 x4 : Vec Ideal S128x128 .bf16) (x3 x5 : Vec Ideal S1x128 .f32)
    (p : Fin 2000) (q : Fin 128) :
    k0_pay1 (F := Ideal) x0 x1 x2 x4 x3 x5 (ix2 p q)
      = Cert.Spec.lk ((∑ k : Fin 128, x1 (ix2 p k) * x2 (ix2 k q)) + x3 (ix2 (0 : Fin 1) q))
        + Cert.Spec.lk ((∑ k : Fin 128, (x0 (ix2 p k) * x1 (ix2 p k)) * x4 (ix2 k q)) + x5 (ix2 (0 : Fin 1) q)) := by
  rw [pay_eq, addf_apply, branchV_apply, branchV_apply]
  rfl

end Cert.KernelIdeal.Pay

end
-- ==== Proof.KernelValue.lean ====
/-
  What the kernel's result array holds after the run, as one function of the argument arrays.

  The region is entered with the aggregate, the two transposed weights (narrowed to bf16: no change on extended reals)
  and the two biases as rows already computed by the host operations before it. Grid point `t` stages rows
  `2000 t … 2000 t + 1999` of the embedding table and of the aggregate, the whole of each weight and bias, and writes back
  rows `2000 t … 2000 t + 1999` of the result: entry `(p, q)` of its block is entry `(2000 t + p, q)` of the specification.
  The twenty-five blocks tile the array, so the array ends holding the specification everywhere.
-/
import proofs.«158843_j12524124636045_1_alg».proof.Proof.Gen.KernelIdeal.Value
import proofs.«158843_j12524124636045_1_alg».proof.Proof.KernelPay
import Idealize.ShloMosaic.Lib.StableHlo.Run
import Idealize.ShloMosaic.Lib.Tactic

noncomputable section

namespace Cert.KernelIdeal.KVal

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds -/

/-- The neighbourhood aggregate over this program's dimension records. -/
def aggK (E : FVec Ideal S50000x128 .f32) (src dst : IVec S1600000 32) : FVec Ideal S50000x128 .f32 :=
  Cert.Spec.agg gather_S50000x128_S1600000x1_S1600000x128_1_0_n_n_0_1_1128 scatter_S50000x128_S1600000x1_S1600000x128_1_0_0_1
    bcast_S_S1600000 bcast_S1600000_S1600000x1_0 bcast_S_S50000x128 E src dst

/-- The aggregate's array is the aggregate of the embedding table along the two index arguments. -/
theorem V_agg (c : Dev nD) : (V m c main_v9 : S50000x128.Idx → EReal)
    = aggK (m ((c : Thread nD τ).loc main_arg0)) (m ((c : Thread nD τ).loc main_arg5)) (m ((c : Thread nD τ).loc main_arg6)) := by
  dsimp only [Gen.V, Gen.hostOps0]
  after_results
  rfl

/-- The first weight's array is the first weight transposed (then narrowed). -/
theorem V_w1 (c : Dev nD) : (V m c main_v11 : S128x128.Idx → EReal)
    = truncf (F := Ideal) .bf16 (transpose S128x128 [1, 0] (m ((c : Thread nD τ).loc main_arg1)) transposes_S128x128_S128x128_1_0) bitsLt_bf16_f32 := by
  dsimp only [Gen.V, Gen.hostOps0]
  after_results

/-- The second weight's array is the second weight transposed (then narrowed). -/
theorem V_w2 (c : Dev nD) : (V m c main_v13 : S128x128.Idx → EReal)
    = truncf (F := Ideal) .bf16 (transpose S128x128 [1, 0] (m ((c : Thread nD τ).loc main_arg3)) transposes_S128x128_S128x128_1_0) bitsLt_bf16_f32 := by
  dsimp only [Gen.V, Gen.hostOps0]
  after_results

/-- The first bias's array is the first bias as one row. -/
theorem V_b1 (c : Dev nD) : (V m c main_v14 : S1x128.Idx → EReal)
    = shapeCast S1x128 (m ((c : Thread nD τ).loc main_arg2)) shapeCasts_S128_S1x128 := by
  dsimp only [Gen.V, Gen.hostOps0]
  after_results
  rfl

/-- The second bias's array is the second bias as one row. -/
theorem V_b2 (c : Dev nD) : (V m c main_v15 : S1x128.Idx → EReal)
    = shapeCast S1x128 (m ((c : Thread nD τ).loc main_arg4)) shapeCasts_S128_S1x128 := by
  dsimp only [Gen.V, Gen.hostOps0]
  after_results
  rfl

/-! ## The specification at this program's arguments -/

/-- The aggregate's array as the region finds it, under a name that is never opened while blocks are read (its
    contents are a long fold of host operations). -/
@[irreducible] def HK (c : Dev nD) : FVec Ideal S50000x128 .f32 := V m c main_v9

theorem HK_eq (c : Dev nD) : (V m c main_v9 : S50000x128.Idx → EReal) = HK m c := by
  unfold HK
  rfl

/-- It is the aggregate of the embedding table along the two index arguments. -/
theorem HK_agg (c : Dev nD) :
    HK m c = aggK (m ((c : Thread nD τ).loc main_arg0)) (m ((c : Thread nD τ).loc main_arg5)) (m ((c : Thread nD τ).loc main_arg6)) :=
  (HK_eq m c).symm.trans (V_agg m c)

/-- The specification over any aggregate, applied to the other arrays as launched. -/
abbrev GkOf (c : Dev nD) (H : FVec Ideal S50000x128 .f32) : S50000x128.Idx → EReal :=
  Cert.Spec.G (m ((c : Thread nD τ).loc main_arg0)) H
    (transpose S128x128 [1, 0] (m ((c : Thread nD τ).loc main_arg1)) transposes_S128x128_S128x128_1_0)
    (transpose S128x128 [1, 0] (m ((c : Thread nD τ).loc main_arg3)) transposes_S128x128_S128x128_1_0)
    (m ((c : Thread nD τ).loc main_arg2)) (m ((c : Thread nD τ).loc main_arg4))

/-- The specification applied to the arrays as launched. -/
abbrev Gk (c : Dev nD) : S50000x128.Idx → EReal :=
  GkOf m c (aggK (m ((c : Thread nD τ).loc main_arg0)) (m ((c : Thread nD τ).loc main_arg5)) (m ((c : Thread nD τ).loc main_arg6)))

/-! ## The blocks a grid point stages -/

/-- The printed index maps over the grid: the three row-blocked windows are at block `(t, 0)`, the four whole ones at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `2000 t + p` of the array. -/
def row (t : Fin cfg0.N) (p : Fin 2000) : Fin 50000 :=
  ⟨2000 * t.val + p.val, by have h1 := t.isLt; have h2 : cfg0.N = 25 := N_0; have h3 := p.isLt; omega⟩

/-- The blocks by their literal types. -/
abbrev eblk (c : Dev nD) (t : Fin cfg0.N) : Vec Ideal S2000x128 .f32 := iblk m c 0 t
abbrev hblk (c : Dev nD) (t : Fin cfg0.N) : Vec Ideal S2000x128 .f32 := iblk m c 1 t
abbrev w1blk (c : Dev nD) (t : Fin cfg0.N) : Vec Ideal S128x128 .bf16 := iblk m c 2 t
abbrev b1blk (c : Dev nD) (t : Fin cfg0.N) : Vec Ideal S1x128 .f32 := iblk m c 3 t
abbrev w2blk (c : Dev nD) (t : Fin cfg0.N) : Vec Ideal S128x128 .bf16 := iblk m c 4 t
abbrev b2blk (c : Dev nD) (t : Fin cfg0.N) : Vec Ideal S1x128 .f32 := iblk m c 5 t

/-! Where a block's entry sits in its array: a row block's entry `(p, k)` at `(2000 t + p, k)`, a whole array's entry at itself. -/

theorem emb0 (t : Fin cfg0.N) (p : Fin 2000) (k : Fin 128) :
    ((cfg0.win 0).blk t).view.emb (ix2 p k) = (ix2 (row t p) k : S50000x128.Idx) := by
  obtain ⟨e0, e1, -⟩ := idx_facts t
  funext a
  apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

theorem emb1 (t : Fin cfg0.N) (p : Fin 2000) (k : Fin 128) :
    ((cfg0.win 1).blk t).view.emb (ix2 p k) = (ix2 (row t p) k : S50000x128.Idx) := by
  obtain ⟨-, -, e0, e1, -⟩ := idx_facts t
  funext a
  apply Fin.ext
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

theorem emb2 (t : Fin cfg0.N) (k q : Fin 128) :
    ((cfg0.win 2).blk t).view.emb (ix2 k q) = (ix2 k q : S128x128.Idx) := by
  obtain ⟨-, -, -, -, e0, e1, -⟩ := idx_facts t
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem emb3 (t : Fin cfg0.N) (q : Fin 128) :
    ((cfg0.win 3).blk t).view.emb (ix2 (0 : Fin 1) q) = (ix2 (0 : Fin 1) q : S1x128.Idx) := by
  obtain ⟨-, -, -, -, -, -, e0, e1, -⟩ := idx_facts t
  funext a
  apply Fin.ext
  match a with
  | ⟨0, _⟩ => show win0_3.index t (0 : Fin 2) * 1 + 1 * 0 = 0; rw [e0]
  | ⟨1, _⟩ => show win0_3.index t (1 : Fin 2) * 128 + 1 * q.val = q.val; rw [e1]; omega

theorem emb4 (t : Fin cfg0.N) (k q : Fin 128) :
    ((cfg0.win 4).blk t).view.emb (ix2 k q) = (ix2 k q : S128x128.Idx) := by
  obtain ⟨-, -, -, -, -, -, -, -, e0, e1, -⟩ := idx_facts t
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

theorem emb5 (t : Fin cfg0.N) (q : Fin 128) :
    ((cfg0.win 5).blk t).view.emb (ix2 (0 : Fin 1) q) = (ix2 (0 : Fin 1) q : S1x128.Idx) := by
  obtain ⟨-, -, -, -, -, -, -, -, -, -, e0, e1, -⟩ := idx_facts t
  funext a
  apply Fin.ext
  match a with
  | ⟨0, _⟩ => show win0_5.index t (0 : Fin 2) * 1 + 1 * 0 = 0; rw [e0]
  | ⟨1, _⟩ => show win0_5.index t (1 : Fin 2) * 128 + 1 * q.val = q.val; rw [e1]; omega

theorem emb6 (t : Fin cfg0.N) (p : Fin 2000) (q : Fin 128) :
    ((cfg0.win 6).blk t).view.emb (ix2 p q) = (ix2 (row t p) q : S50000x128.Idx) := by
  obtain ⟨-, -, -, -, -, -, -, -, -, -, -, -, e0, e1⟩ := idx_facts t
  funext a
  apply Fin.ext
  match a with
  | ⟨0, _⟩ => show win0_6.index t (0 : Fin 2) * 2000 + 1 * p.val = 2000 * t.val + p.val; rw [e0]; omega
  | ⟨1, _⟩ => show win0_6.index t (1 : Fin 2) * 128 + 1 * q.val = q.val; rw [e1]; omega

/-! What each staged block holds. -/

/-- The embedding block at `(p, k)` is the embedding table at `(2000 t + p, k)`. -/
theorem eblk_apply (c : Dev nD) (t : Fin cfg0.N) (p : Fin 2000) (k : Fin 128) :
    eblk m c t (ix2 p k) = (m ((c : Thread nD τ).loc main_arg0) : S50000x128.Idx → EReal) (ix2 (row t p) k) := by
  obtain ⟨e00, e01, -⟩ := idx_facts t
  unfold eblk iblk
  rw [View.read_apply]
  show V m c main_arg0 _ = _
  rw [V_main_arg0]
  refine congrArg _ ?_
  funext a
  apply Fin.ext
  match a with
  | ⟨0, _⟩ => show win0_0.index t (0 : Fin 2) * 2000 + 1 * p.val = 2000 * t.val + p.val; rw [e00]; omega
  | ⟨1, _⟩ => show win0_0.index t (1 : Fin 2) * 128 + 1 * k.val = k.val; rw [e01]; omega

/-- Any array read through the aggregate window's block at point `t`: entry `(p, k)` is the array's entry `(2000 t + p, k)`. -/
theorem read_rows1 (A : S50000x128.Idx → EReal) (t : Fin cfg0.N) (p : Fin 2000) (k : Fin 128) :
    (((cfg0.win 1).blk t).view.read (Elt Ideal) A : Vec Ideal S2000x128 .f32) (ix2 p k) = A (ix2 (row t p) k) := by
  rw [View.read_apply]
  show A (((cfg0.win 1).blk t).view.emb (ix2 p k)) = _
  rw [emb1]

theorem HK_eq' (c : Dev nD) : (V m c (Pipeline.arrRef spec0 1) : S50000x128.Idx → EReal) = HK m c := by
  unfold HK
  rfl

/-- The aggregate's block is the aggregate's array read through the window. -/
theorem hblk_eq (c : Dev nD) (t : Fin cfg0.N) : hblk m c t = ((cfg0.win 1).blk t).view.read (Elt Ideal) (HK m c) := by
  unfold hblk iblk
  rw [HK_eq']

/-- The aggregate's block at `(p, k)` is the aggregate's array at `(2000 t + p, k)`. -/
theorem hblk_apply (c : Dev nD) (t : Fin cfg0.N) (p : Fin 2000) (k : Fin 128) :
    hblk m c t (ix2 p k) = HK m c (ix2 (row t p) k) := by
  rw [hblk_eq]
  exact read_rows1 (HK m c) t p k

/-- The first weight's block is the first weight transposed. -/
theorem w1blk_apply (c : Dev nD) (t : Fin cfg0.N) (k q : Fin 128) :
    w1blk m c t (ix2 k q) = transpose S128x128 [1, 0] (m ((c : Thread nD τ).loc main_arg1)) transposes_S128x128_S128x128_1_0 (ix2 k q) := by
  obtain ⟨-, -, -, -, e20, e21, -⟩ := idx_facts t
  unfold w1blk iblk
  rw [View.read_apply]
  show V m c main_v11 _ = _
  rw [V_w1, truncf_apply]
  refine congrArg _ ?_
  funext a
  apply Fin.ext
  match a with
  | ⟨0, _⟩ => show win0_2.index t (0 : Fin 2) * 128 + 1 * k.val = k.val; rw [e20]; omega
  | ⟨1, _⟩ => show win0_2.index t (1 : Fin 2) * 128 + 1 * q.val = q.val; rw [e21]; omega

/-- The second weight's block is the second weight transposed. -/
theorem w2blk_apply (c : Dev nD) (t : Fin cfg0.N) (k q : Fin 128) :
    w2blk m c t (ix2 k q) = transpose S128x128 [1, 0] (m ((c : Thread nD τ).loc main_arg3)) transposes_S128x128_S128x128_1_0 (ix2 k q) := by
  obtain ⟨-, -, -, -, -, -, -, -, e40, e41, -⟩ := idx_facts t
  unfold w2blk iblk
  rw [View.read_apply]
  show V m c main_v13 _ = _
  rw [V_w2, truncf_apply]
  refine congrArg _ ?_
  funext a
  apply Fin.ext
  match a with
  | ⟨0, _⟩ => show win0_4.index t (0 : Fin 2) * 128 + 1 * k.val = k.val; rw [e40]; omega
  | ⟨1, _⟩ => show win0_4.index t (1 : Fin 2) * 128 + 1 * q.val = q.val; rw [e41]; omega

/-- The first bias's block, a row, at column `q` is the first bias at `q`. -/
theorem b1blk_apply (c : Dev nD) (t : Fin cfg0.N) (q : Fin 128) :
    b1blk m c t (ix2 (0 : Fin 1) q) = (m ((c : Thread nD τ).loc main_arg2) : S128.Idx → EReal) (ix1 q) := by
  obtain ⟨-, -, -, -, -, -, e30, e31, -⟩ := idx_facts t
  unfold b1blk iblk
  rw [View.read_apply]
  show V m c main_v14 _ = _
  rw [V_b1]
  refine Eq.trans (congrArg _ ?_) (shapeCast_a_1a_apply _ shapeCasts_S128_S1x128 (0 : Fin 1) q)
  funext a
  apply Fin.ext
  match a with
  | ⟨0, _⟩ => show win0_3.index t (0 : Fin 2) * 1 + 1 * 0 = 0; rw [e30]
  | ⟨1, _⟩ => show win0_3.index t (1 : Fin 2) * 128 + 1 * q.val = q.val; rw [e31]; omega

/-- The second bias's block, a row, at column `q` is the second bias at `q`. -/
theorem b2blk_apply (c : Dev nD) (t : Fin cfg0.N) (q : Fin 128) :
    b2blk m c t (ix2 (0 : Fin 1) q) = (m ((c : Thread nD τ).loc main_arg4) : S128.Idx → EReal) (ix1 q) := by
  obtain ⟨-, -, -, -, -, -, -, -, -, -, e50, e51, -⟩ := idx_facts t
  unfold b2blk iblk
  rw [View.read_apply]
  show V m c main_v15 _ = _
  rw [V_b2]
  refine Eq.trans (congrArg _ ?_) (shapeCast_a_1a_apply _ shapeCasts_S128_S1x128 (0 : Fin 1) q)
  funext a
  apply Fin.ext
  match a with
  | ⟨0, _⟩ => show win0_5.index t (0 : Fin 2) * 1 + 1 * 0 = 0; rw [e50]
  | ⟨1, _⟩ => show win0_5.index t (1 : Fin 2) * 128 + 1 * q.val = q.val; rw [e51]; omega

/-! ## What a grid point writes back -/

/-- The result window is uncut: what a point writes back is the whole staging buffer. -/
theorem cut6 (t : Fin cfg0.N) (X : Vec Ideal S2000x128 .f32) : (cfg0.win 6).cut (grid0.coords t) X = X := rfl

/-- Any array read through the result window's block at point `t`: entry `(p, q)` is the array's entry `(2000 t + p, q)`. -/
theorem read_rows6 (A : S50000x128.Idx → EReal) (t : Fin cfg0.N) (p : Fin 2000) (q : Fin 128) :
    (((cfg0.win 6).blk t).view.read (Elt Ideal) A : Vec Ideal S2000x128 .f32) (ix2 p q) = A (ix2 (row t p) q) := by
  rw [View.read_apply]
  show A (((cfg0.win 6).blk t).view.emb (ix2 p q)) = _
  rw [emb6]

/-- The specification over an aggregate `H`, at row `r` and column `q`. -/
theorem GkOf_apply (c : Dev nD) (H : FVec Ideal S50000x128 .f32) (r : Fin 50000) (q : Fin 128) :
    GkOf m c H (ix2 r q)
      = Cert.Spec.entry (m ((c : Thread nD τ).loc main_arg0)) H
          (transpose S128x128 [1, 0] (m ((c : Thread nD τ).loc main_arg1)) transposes_S128x128_S128x128_1_0)
          (transpose S128x128 [1, 0] (m ((c : Thread nD τ).loc main_arg3)) transposes_S128x128_S128x128_1_0)
          (m ((c : Thread nD τ).loc main_arg2)) (m ((c : Thread nD τ).loc main_arg4)) r q := rfl

/-- WHAT POINT `t` WRITES BACK is block `t` of the specification. -/
theorem flushed_eq (c : Dev nD) (t : Fin cfg0.N) :
    (dats m 0 c).flushed 6 t = ((cfg0.win 6).blk t).view.read (Elt Ideal) (GkOf m c (HK m c)) := by
  rw [flushed6, cut6]
  unfold out0_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  rw [read_rows6, GkOf_apply]
  refine (Cert.KernelIdeal.Pay.pay_apply (eblk m c t) (hblk m c t) (w1blk m c t) (w2blk m c t) (b1blk m c t) (b2blk m c t) p q).trans ?_
  unfold Cert.Spec.entry
  simp only [eblk_apply, hblk_apply, w1blk_apply, w2blk_apply, b1blk_apply, b2blk_apply]

/-! ## The blocks tile the array -/

/-- An index of the array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v16).slice (win0_6.rect t)).set ↔ _
  rw [View.set_slice_whole, Rect.mem_set_unit]
  exact Iff.rfl

/-- Row `r` of the array is in the block of point `r / 2000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, -, -, -, -, -, -, -, -, e60, e61⟩ := idx_facts t
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; rw [e60, ht]; omega
  | ⟨1, _⟩ => show win0_6.index t (1 : Fin 2) * 128 ≤ (i 1).val ∧ (i 1).val < win0_6.index t (1 : Fin 2) * 128 + 128; rw [e61]; omega

/-- THE ARRAY after the run is the specification. -/
theorem final (c : Dev nD) : (dats m 0 c).arrAt 6 cfg0.N = Gk m c :=
  ((dats m 0 c).arrAt_eq_of_cover 6 (GkOf m c (HK m c)) (fun t _ => flushed_eq m c t) cover).trans
    (congrArg (GkOf m c) (HK_agg m c))

/-! ## The run, read -/

/-- Every weakly fair execution terminates with the result array at the specification of the arguments, the arguments
    unchanged. -/
theorem run : θ_run defs (onTc (τ := τ) (main (F := Ideal))) ⟨m, fun _ => 0, ρ⟩ fun r => ∀ c : Dev nD,
      r.2.mem ((c : Thread nD τ).loc main_v16) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (run_blocks m ρ)

end Cert.KernelIdeal.KVal

end
-- ==== Proof.RefRun.lean ====
/-
  The reference program read as a straight line. Its @main is forty-one host operations once the two calls of the leaky
  rectifier (seven operations each: the zero, its spread, the comparison, the slope re-typed, its spread, the product, the
  selection) are written out at their call sites; every weakly fair execution runs them in order, so each buffer ends at the
  fold of the operations over the launch contents. Read at the result buffer that fold is

      leaky (H · W₁ᵀ + b₁)  +  leaky ((E ∘ H) · W₂ᵀ + b₂),      H = the neighbourhood aggregate of E along (src, dst),

  (`out`), and at an argument buffer the argument itself.
-/
import proofs.«158843_j12524124636045_1_alg».proof.Proof.Gen.ReferenceIdeal
import proofs.«158843_j12524124636045_1_alg».proof.Proof.Spec
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls written out over their buffer records. -/
abbrev ops : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg5 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 50000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg5 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg5 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v7 (broadcastInDim S50000x128 ![] bcast_S_S50000x128 : (⟨S_, .f32⟩ : BufTy).Contents (Elt F) → (⟨S50000x128, .f32⟩ : BufTy).Contents (Elt F)),
    StableHlo.unary main_arg6 main_v8 (broadcastInDim S1600000x1 ![0] bcast_S1600000_S1600000x1_0 : (⟨S1600000, .i32⟩ : BufTy).Contents (Elt F) → (⟨S1600000x1, .i32⟩ : BufTy).Contents (Elt F)),
    StableHlo.ternary main_v7 main_v8 main_v6 main_v9 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_arg1 main_v10 ((transpose S128x128 [1, 0] · transposes_S128x128_S128x128_1_0) : (⟨S128x128, .f32⟩ : BufTy).Contents (Elt F) → (⟨S128x128, .f32⟩ : BufTy).Contents (Elt F)),
    StableHlo.binary main_v9 main_v10 main_v11 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg2 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S50000x128 ![0, 1] bcast_S1x128_S50000x128_0_1 : (⟨S1x128, .f32⟩ : BufTy).Contents (Elt F) → (⟨S50000x128, .f32⟩ : BufTy).Contents (Elt F)),
    StableHlo.binary main_v11 main_v13 main_v14 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x3C23D70A#32),
    StableHlo.TRef.nullary main_call0.cst (constant S_ .f32 0x00000000#32),
    StableHlo.TRef.unary main_call0.cst main_call0.v0 (broadcastInDim S50000x128 ![] bcast_S_S50000x128),
    StableHlo.TRef.binary (.of main_v14) main_call0.v0 main_call0.v1 (cmpf .oge),
    StableHlo.TRef.unary (.of main_cst_1) main_call0.v2 id,
    StableHlo.TRef.unary main_call0.v2 main_call0.v3 (broadcastInDim S50000x128 ![] bcast_S_S50000x128),
    StableHlo.TRef.binary main_call0.v3 (.of main_v14) main_call0.v4 mulf,
    StableHlo.TRef.ternary main_call0.v1 (.of main_v14) main_call0.v4 main_call0.call0.v0 select,
    StableHlo.binary main_arg0 main_v9 main_v16 (mulf : (⟨S50000x128, .f32⟩ : BufTy).Contents (Elt F) → (⟨S50000x128, .f32⟩ : BufTy).Contents (Elt F) → (⟨S50000x128, .f32⟩ : BufTy).Contents (Elt F)),
    StableHlo.unary main_arg3 main_v17 ((transpose S128x128 [1, 0] · transposes_S128x128_S128x128_1_0) : (⟨S128x128, .f32⟩ : BufTy).Contents (Elt F) → (⟨S128x128, .f32⟩ : BufTy).Contents (Elt F)),
    StableHlo.binary main_v16 main_v17 main_v18 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S50000x128 ![0, 1] bcast_S1x128_S50000x128_0_1 : (⟨S1x128, .f32⟩ : BufTy).Contents (Elt F) → (⟨S50000x128, .f32⟩ : BufTy).Contents (Elt F)),
    StableHlo.binary main_v18 main_v20 main_v21 (addf : (⟨S50000x128, .f32⟩ : BufTy).Contents (Elt F) → (⟨S50000x128, .f32⟩ : BufTy).Contents (Elt F) → (⟨S50000x128, .f32⟩ : BufTy).Contents (Elt F)),
    StableHlo.nullary main_cst_2 (constant S_ .f32 0x3C23D70A#32),
    StableHlo.TRef.nullary main_call1.cst (constant S_ .f32 0x00000000#32),
    StableHlo.TRef.unary main_call1.cst main_call1.v0 (broadcastInDim S50000x128 ![] bcast_S_S50000x128),
    StableHlo.TRef.binary (.of main_v21) main_call1.v0 main_call1.v1 (cmpf .oge),
    StableHlo.TRef.unary (.of main_cst_2) main_call1.v2 id,
    StableHlo.TRef.unary main_call1.v2 main_call1.v3 (broadcastInDim S50000x128 ![] bcast_S_S50000x128),
    StableHlo.TRef.binary main_call1.v3 (.of main_v21) main_call1.v4 mulf,
    StableHlo.TRef.ternary main_call1.v1 (.of main_v21) main_call1.v4 main_call1.call0.v0 select,
    StableHlo.binary main_v15 main_v22 main_v23 (addf : (⟨S50000x128, .f32⟩ : BufTy).Contents (Elt F) → (⟨S50000x128, .f32⟩ : BufTy).Contents (Elt F) → (⟨S50000x128, .f32⟩ : BufTy).Contents (Elt F)) ]

-- forty-one binds re-associated under the chain
set_option maxRecDepth 2048 in
/-- @main is that straight line: the callee's definition unfolded at both calls, sequencing re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩

/-- Every weakly fair execution of @main terminates, each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The operations up to the aggregate, -/
abbrev ops1 : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg5 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 50000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg5 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg5 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v7 (broadcastInDim S50000x128 ![] bcast_S_S50000x128 : (⟨S_, .f32⟩ : BufTy).Contents (Elt F) → (⟨S50000x128, .f32⟩ : BufTy).Contents (Elt F)),
    StableHlo.unary main_arg6 main_v8 (broadcastInDim S1600000x1 ![0] bcast_S1600000_S1600000x1_0 : (⟨S1600000, .i32⟩ : BufTy).Contents (Elt F) → (⟨S1600000x1, .i32⟩ : BufTy).Contents (Elt F)),
    StableHlo.ternary main_v7 main_v8 main_v6 main_v9 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) ]

/-- and the rest: the two branches and their sum. -/
abbrev ops2 : List (HloOp τ sig (Elt F)) :=
  [ StableHlo.unary main_arg1 main_v10 ((transpose S128x128 [1, 0] · transposes_S128x128_S128x128_1_0) : (⟨S128x128, .f32⟩ : BufTy).Contents (Elt F) → (⟨S128x128, .f32⟩ : BufTy).Contents (Elt F)),
    StableHlo.binary main_v9 main_v10 main_v11 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg2 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S50000x128 ![0, 1] bcast_S1x128_S50000x128_0_1 : (⟨S1x128, .f32⟩ : BufTy).Contents (Elt F) → (⟨S50000x128, .f32⟩ : BufTy).Contents (Elt F)),
    StableHlo.binary main_v11 main_v13 main_v14 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x3C23D70A#32),
    StableHlo.TRef.nullary main_call0.cst (constant S_ .f32 0x00000000#32),
    StableHlo.TRef.unary main_call0.cst main_call0.v0 (broadcastInDim S50000x128 ![] bcast_S_S50000x128),
    StableHlo.TRef.binary (.of main_v14) main_call0.v0 main_call0.v1 (cmpf .oge),
    StableHlo.TRef.unary (.of main_cst_1) main_call0.v2 id,
    StableHlo.TRef.unary main_call0.v2 main_call0.v3 (broadcastInDim S50000x128 ![] bcast_S_S50000x128),
    StableHlo.TRef.binary main_call0.v3 (.of main_v14) main_call0.v4 mulf,
    StableHlo.TRef.ternary main_call0.v1 (.of main_v14) main_call0.v4 main_call0.call0.v0 select,
    StableHlo.binary main_arg0 main_v9 main_v16 (mulf : (⟨S50000x128, .f32⟩ : BufTy).Contents (Elt F) → (⟨S50000x128, .f32⟩ : BufTy).Contents (Elt F) → (⟨S50000x128, .f32⟩ : BufTy).Contents (Elt F)),
    StableHlo.unary main_arg3 main_v17 ((transpose S128x128 [1, 0] · transposes_S128x128_S128x128_1_0) : (⟨S128x128, .f32⟩ : BufTy).Contents (Elt F) → (⟨S128x128, .f32⟩ : BufTy).Contents (Elt F)),
    StableHlo.binary main_v16 main_v17 main_v18 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S50000x128 ![0, 1] bcast_S1x128_S50000x128_0_1 : (⟨S1x128, .f32⟩ : BufTy).Contents (Elt F) → (⟨S50000x128, .f32⟩ : BufTy).Contents (Elt F)),
    StableHlo.binary main_v18 main_v20 main_v21 (addf : (⟨S50000x128, .f32⟩ : BufTy).Contents (Elt F) → (⟨S50000x128, .f32⟩ : BufTy).Contents (Elt F) → (⟨S50000x128, .f32⟩ : BufTy).Contents (Elt F)),
    StableHlo.nullary main_cst_2 (constant S_ .f32 0x3C23D70A#32),
    StableHlo.TRef.nullary main_call1.cst (constant S_ .f32 0x00000000#32),
    StableHlo.TRef.unary main_call1.cst main_call1.v0 (broadcastInDim S50000x128 ![] bcast_S_S50000x128),
    StableHlo.TRef.binary (.of main_v21) main_call1.v0 main_call1.v1 (cmpf .oge),
    StableHlo.TRef.unary (.of main_cst_2) main_call1.v2 id,
    StableHlo.TRef.unary main_call1.v2 main_call1.v3 (broadcastInDim S50000x128 ![] bcast_S_S50000x128),
    StableHlo.TRef.binary main_call1.v3 (.of main_v21) main_call1.v4 mulf,
    StableHlo.TRef.ternary main_call1.v1 (.of main_v21) main_call1.v4 main_call1.call0.v0 select,
    StableHlo.binary main_v15 main_v22 main_v23 (addf : (⟨S50000x128, .f32⟩ : BufTy).Contents (Elt F) → (⟨S50000x128, .f32⟩ : BufTy).Contents (Elt F) → (⟨S50000x128, .f32⟩ : BufTy).Contents (Elt F)) ]

theorem ops_split : (ops : List (HloOp τ sig (Elt F))) = ops1 ++ ops2 := rfl

/-- The neighbourhood aggregate over this program's dimension records. -/
def aggR (E : FVec Ideal S50000x128 .f32) (src dst : IVec S1600000 32) : FVec Ideal S50000x128 .f32 :=
  Cert.Spec.agg gather_S50000x128_S1600000x1_S1600000x128_1_0_n_n_0_1_1128 scatter_S50000x128_S1600000x1_S1600000x128_1_0_0_1
    bcast_S_S1600000 bcast_S1600000_S1600000x1_0 bcast_S_S50000x128 E src dst

/-- The leaky rectifier as the callee spells it on a whole array. -/
def lkV (x : FVec Ideal S50000x128 .f32) : FVec Ideal S50000x128 .f32 :=
  select (cmpf .oge x (broadcastInDim S50000x128 ![] bcast_S_S50000x128 (constant (F := Ideal) S_ .f32 0x00000000#32))) x
    (mulf (broadcastInDim S50000x128 ![] bcast_S_S50000x128 (constant (F := Ideal) S_ .f32 0x3C23D70A#32)) x)

/-- One branch: a product with a transposed weight, a bias spread over the rows, the rectifier. -/
def branch (X : FVec Ideal S50000x128 .f32) (W : FVec Ideal S128x128 .f32) (b : FVec Ideal S128 .f32) : FVec Ideal S50000x128 .f32 :=
  lkV (addf (Host.dotGeneral dot_S50000x128_S128x128_S50000x128_1_0_0_1_n_n none X (transpose S128x128 [1, 0] W transposes_S128x128_S128x128_1_0))
    (broadcastInDim S50000x128 ![0, 1] bcast_S1x128_S50000x128_0_1 (broadcastInDim S1x128 ![1] bcast_S128_S1x128_1 b)))

/-- The two branches over any aggregate `H`, added. -/
def outOf (E H : FVec Ideal S50000x128 .f32) (W1 : FVec Ideal S128x128 .f32) (b1 : FVec Ideal S128 .f32) (W2 : FVec Ideal S128x128 .f32)
    (b2 : FVec Ideal S128 .f32) : FVec Ideal S50000x128 .f32 :=
  addf (branch H W1 b1) (branch (mulf E H) W2 b2)

/-- The result as one term of the arguments. -/
def out (E : FVec Ideal S50000x128 .f32) (W1 : FVec Ideal S128x128 .f32) (b1 : FVec Ideal S128 .f32) (W2 : FVec Ideal S128x128 .f32)
    (b2 : FVec Ideal S128 .f32) (src dst : IVec S1600000 32) : FVec Ideal S50000x128 .f32 :=
  outOf E (aggR E src dst) W1 b1 W2 b2

/-- After the first stretch the aggregate's buffer holds the aggregate of the embedding table along the index arguments. -/
theorem head_agg (V : Valuation τ sig (Elt Ideal)) :
    after (ops1 (F := Ideal)) V (main_v9 : DevRef τ sig)
      = aggR (V (main_arg0 : DevRef τ sig)) (V (main_arg5 : DevRef τ sig)) (V (main_arg6 : DevRef τ sig)) := by
  after_results
  rfl

theorem head_arg0 (V : Valuation τ sig (Elt Ideal)) : after (ops1 (F := Ideal)) V (main_arg0 : DevRef τ sig) = V (main_arg0 : DevRef τ sig) := by
  after_results
theorem head_arg1 (V : Valuation τ sig (Elt Ideal)) : after (ops1 (F := Ideal)) V (main_arg1 : DevRef τ sig) = V (main_arg1 : DevRef τ sig) := by
  after_results
theorem head_arg2 (V : Valuation τ sig (Elt Ideal)) : after (ops1 (F := Ideal)) V (main_arg2 : DevRef τ sig) = V (main_arg2 : DevRef τ sig) := by
  after_results
theorem head_arg3 (V : Valuation τ sig (Elt Ideal)) : after (ops1 (F := Ideal)) V (main_arg3 : DevRef τ sig) = V (main_arg3 : DevRef τ sig) := by
  after_results
theorem head_arg4 (V : Valuation τ sig (Elt Ideal)) : after (ops1 (F := Ideal)) V (main_arg4 : DevRef τ sig) = V (main_arg4 : DevRef τ sig) := by
  after_results
theorem head_arg5 (V : Valuation τ sig (Elt Ideal)) : after (ops1 (F := Ideal)) V (main_arg5 : DevRef τ sig) = V (main_arg5 : DevRef τ sig) := by
  after_results
theorem head_arg6 (V : Valuation τ sig (Elt Ideal)) : after (ops1 (F := Ideal)) V (main_arg6 : DevRef τ sig) = V (main_arg6 : DevRef τ sig) := by
  after_results

set_option maxHeartbeats 2000000 in
/-- The second stretch from ANY contents `W`: the result buffer ends at the two branches over what the aggregate's
    buffer held, added. -/
theorem tail_eq (W : Valuation τ sig (Elt Ideal)) :
    after (ops2 (F := Ideal)) W (main_v23 : DevRef τ sig)
      = outOf (W (main_arg0 : DevRef τ sig)) (W (main_v9 : DevRef τ sig)) (W (main_arg1 : DevRef τ sig)) (W (main_arg2 : DevRef τ sig))
          (W (main_arg3 : DevRef τ sig)) (W (main_arg4 : DevRef τ sig)) := by
  after_results_simp
  simp only [StableHlo.TRef.toBuf, StableHlo.TRef.ofBuf, cast_eq, id_eq]
  rfl

theorem tail_arg0 (W : Valuation τ sig (Elt Ideal)) : after (ops2 (F := Ideal)) W (main_arg0 : DevRef τ sig) = W (main_arg0 : DevRef τ sig) := by
  after_results
theorem tail_arg1 (W : Valuation τ sig (Elt Ideal)) : after (ops2 (F := Ideal)) W (main_arg1 : DevRef τ sig) = W (main_arg1 : DevRef τ sig) := by
  after_results
theorem tail_arg2 (W : Valuation τ sig (Elt Ideal)) : after (ops2 (F := Ideal)) W (main_arg2 : DevRef τ sig) = W (main_arg2 : DevRef τ sig) := by
  after_results
theorem tail_arg3 (W : Valuation τ sig (Elt Ideal)) : after (ops2 (F := Ideal)) W (main_arg3 : DevRef τ sig) = W (main_arg3 : DevRef τ sig) := by
  after_results
theorem tail_arg4 (W : Valuation τ sig (Elt Ideal)) : after (ops2 (F := Ideal)) W (main_arg4 : DevRef τ sig) = W (main_arg4 : DevRef τ sig) := by
  after_results
theorem tail_arg5 (W : Valuation τ sig (Elt Ideal)) : after (ops2 (F := Ideal)) W (main_arg5 : DevRef τ sig) = W (main_arg5 : DevRef τ sig) := by
  after_results
theorem tail_arg6 (W : Valuation τ sig (Elt Ideal)) : after (ops2 (F := Ideal)) W (main_arg6 : DevRef τ sig) = W (main_arg6 : DevRef τ sig) := by
  after_results

/-- The fold at the result buffer is `out` of the arguments' contents. -/
theorem out_eq (V : Valuation τ sig (Elt Ideal)) :
    after (ops (F := Ideal)) V (main_v23 : DevRef τ sig)
      = out (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) := by
  rw [ops_split, Idealize.ShloMosaic.StableHlo.after_append, tail_eq, head_agg, head_arg0, head_arg1, head_arg2, head_arg3, head_arg4]
  rfl

theorem arg0_eq (V : Valuation τ sig (Elt Ideal)) : after (ops (F := Ideal)) V (main_arg0 : DevRef τ sig) = V (main_arg0 : DevRef τ sig) := by
  rw [ops_split, Idealize.ShloMosaic.StableHlo.after_append, tail_arg0, head_arg0]
theorem arg1_eq (V : Valuation τ sig (Elt Ideal)) : after (ops (F := Ideal)) V (main_arg1 : DevRef τ sig) = V (main_arg1 : DevRef τ sig) := by
  rw [ops_split, Idealize.ShloMosaic.StableHlo.after_append, tail_arg1, head_arg1]
theorem arg2_eq (V : Valuation τ sig (Elt Ideal)) : after (ops (F := Ideal)) V (main_arg2 : DevRef τ sig) = V (main_arg2 : DevRef τ sig) := by
  rw [ops_split, Idealize.ShloMosaic.StableHlo.after_append, tail_arg2, head_arg2]
theorem arg3_eq (V : Valuation τ sig (Elt Ideal)) : after (ops (F := Ideal)) V (main_arg3 : DevRef τ sig) = V (main_arg3 : DevRef τ sig) := by
  rw [ops_split, Idealize.ShloMosaic.StableHlo.after_append, tail_arg3, head_arg3]
theorem arg4_eq (V : Valuation τ sig (Elt Ideal)) : after (ops (F := Ideal)) V (main_arg4 : DevRef τ sig) = V (main_arg4 : DevRef τ sig) := by
  rw [ops_split, Idealize.ShloMosaic.StableHlo.after_append, tail_arg4, head_arg4]
theorem arg5_eq (V : Valuation τ sig (Elt Ideal)) : after (ops (F := Ideal)) V (main_arg5 : DevRef τ sig) = V (main_arg5 : DevRef τ sig) := by
  rw [ops_split, Idealize.ShloMosaic.StableHlo.after_append, tail_arg5, head_arg5]
theorem arg6_eq (V : Valuation τ sig (Elt Ideal)) : after (ops (F := Ideal)) V (main_arg6 : DevRef τ sig) = V (main_arg6 : DevRef τ sig) := by
  rw [ops_split, Idealize.ShloMosaic.StableHlo.after_append, tail_arg6, head_arg6]

/-- The run, read: the result buffer at `out` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v23).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_fold m ρ)

end Cert.ReferenceIdeal.RefRun

end
-- ==== Proof.LibHostRows.lean ====
/-
  Row-wise readings of the host program's operations, at an index written with the coordinate constructors: a plain
  `dot_general` at `(p, q)` is the sum over the contracted coordinate; a sum (a maximum) over the second axis at row `p`
  is the initial value plus the row's sum (the fold of `max` from the initial value over the row); and the
  `broadcast_in_dim` forms a keepdims reduction and a bias need: a scalar spread over any shape, a vector made a column
  or a row, a column or a row spread over a matrix.
-/
import proofs.«158843_j12524124636045_1_alg».proof.Proof.LibRowOps
import Idealize.ShloMosaic.Lib.Pipeline.Value

namespace Cert.LibHostRows

open Idealize.ShloMosaic Idealize.ShloMosaic.ValueIdx

/-! ## The host's pointwise operations -/

section Pointwise
variable {s : Shape} {φ : FTy}

theorem hostDivf_apply (x y : FVec Ideal s φ) (i : s.Idx) : Host.divf x y i = Ideal.div (x i) (y i) := rfl
theorem hostSqrt_apply (x : FVec Ideal s φ) (i : s.Idx) : Host.sqrt x i = Ideal.sqrt (x i) := rfl
theorem hostExp_apply (x : FVec Ideal s φ) (i : s.Idx) : Host.exp x i = Ideal.exp (x i) := rfl
theorem hostLog_apply (x : FVec Ideal s φ) (i : s.Idx) : Host.log x i = Ideal.log (x i) := rfl

end Pointwise

/-! ## The host's matrix product -/

/-- A plain `dot_general` of an `[M, K]` by a `[K, N]` array, at `(p, q)`. -/
theorem dotGeneral_plain_apply (M K N : ℕ) {φ₁ φ₂ : FTy} (sched : HostSchedule) (l : FVec Ideal ⟨2, ![M, K]⟩ φ₁)
    (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact LibRowOps.plain_lhs_row M K N _ _
      | ⟨1, _⟩ => exact (LibRowOps.plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (LibRowOps.plain_rhs_contr M K N _ _).trans hk
      | ⟨1, _⟩ => exact LibRowOps.plain_rhs_col M K N _ _)
  rw [el, er]

/-! ## The host's reductions along the rows of a matrix -/

section Rows
variable {a b : ℕ} {φ : FTy} {u : Shape}

/-- The host's sum over the second axis, at row `p`: the initial value plus the sum of the row's entries. -/
theorem hostRowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduceAdd x init h' hu (ix1 p) = init (Shape.Idx.first hu) + ∑ k : Fin b, x (ix2 p k) := by
  unfold Host.reduceAdd
  rw [Ideal.hostReduceAdd_def, Ideal.hostReduceAdd_single h' h]
  exact congrArg (_ + ·) (Finset.sum_congr rfl fun k _ => congrArg x (LibRowOps.lift_row h p k))

/-- The host's maximum over the second axis, at row `p`: the fold of `max` from the initial value over the row's entries. -/
theorem hostRowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduce (FloatOps.maximumf (F := Ideal) (φ := φ)) x init h' hu (ix1 p)
      = (Finset.univ : Finset (Fin b)).fold max (init (Shape.Idx.first hu)) (fun k => x (ix2 p k)) := by
  rw [Host.reduce_eq_fold_single (FloatOps.maximumf (F := Ideal) (φ := φ)) x init h' h hu (ix1 p)]
  exact congrArg (Finset.fold max (init (Shape.Idx.first hu)) · Finset.univ) (funext fun k => congrArg x (LibRowOps.lift_row h p k))

end Rows

/-! ## `broadcast_in_dim` -/

section Bcast
variable {α : Type} {a b : ℕ}

/-- A scalar spread over any shape reads the scalar everywhere. -/
theorem bcast_scalar_apply {t : Shape} (h : (⟨0, ![]⟩ : Shape).BroadcastsInDim t ![]) (v : (⟨0, ![]⟩ : Shape).Idx → α) (j : t.Idx) :
    broadcastInDim t ![] h v j = v ix0 :=
  broadcastInDim_apply ![] h v j ix0 fun ax => ax.elim0

/-- A vector `[a]` made a column `[a, 1]` reads, at `(p, u)`, the vector at `p`. -/
theorem bcast_vec_col_apply (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A vector `[b]` made a row `[1, b]` reads, at `(u, c)`, the vector at `c`. -/
theorem bcast_vec_row_apply (h : (⟨1, ![b]⟩ : Shape).BroadcastsInDim ⟨2, ![1, b]⟩ ![1]) (v : (⟨1, ![b]⟩ : Shape).Idx → α)
    (u : Fin 1) (c : Fin b) : broadcastInDim ⟨2, ![1, b]⟩ ![1] h v (ix2 u c) = v (ix1 c) :=
  broadcastInDim_apply ![1] h v (ix2 u c) (ix1 c) fun ax => by
    match ax with
    | ⟨0, _⟩ =>
      show c.val = if b = 1 then 0 else c.val
      split
      · have := c.isLt; omega
      · rfl

/-- A column `[a, 1]` spread over `[a, b]` reads, at `(p, c)`, the column's entry of row `p`. -/
theorem bcast_col_apply (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- A row `[1, b]` spread over `[a, b]` reads, at `(p, c)`, the row's entry of column `c`. -/
theorem bcast_row_apply (h : (⟨2, ![1, b]⟩ : Shape).BroadcastsInDim ⟨2, ![a, b]⟩ ![0, 1]) (v : (⟨2, ![1, b]⟩ : Shape).Idx → α)
    (p : Fin a) (c : Fin b) : broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

end Bcast

end Cert.LibHostRows
-- ==== Proof.RefValue.lean ====
/-
  The reference's result is the specification: entry `(p, q)` of each branch is the rectifier of the contraction of row `p`
  of the left factor with column `q` of the transposed weight, plus the bias at `q` (the host's product a plain sum over
  the contracted coordinate, the bias made a row and the row spread over the rows), and the result is the two branches
  added entry by entry.
-/
import proofs.«158843_j12524124636045_1_alg».proof.Proof.RefRun
import proofs.«158843_j12524124636045_1_alg».proof.Proof.LibHostRows

noncomputable section

namespace Cert.ReferenceIdeal.RefValue

open Cert.ReferenceIdeal Cert.ReferenceIdeal.Gen Cert.ReferenceIdeal.RefRun Idealize.ShloMosaic Idealize.ShloMosaic.ValueIdx

/-- The callee's rectifier at an entry is the scalar rectifier of that entry. -/
theorem lkV_apply (x : FVec Ideal S50000x128 .f32) (i : S50000x128.Idx) : lkV x i = Cert.Spec.lk (x i) := by
  unfold lkV
  rw [select_apply, cmpf_apply, mulf_apply]
  have h0 := Cert.LibHostRows.bcast_scalar_apply bcast_S_S50000x128 (constant (F := Ideal) S_ .f32 0x00000000#32) i
  have h1 := Cert.LibHostRows.bcast_scalar_apply bcast_S_S50000x128 (constant (F := Ideal) S_ .f32 0x3C23D70A#32) i
  rw [h0, h1]
  rfl

/-- A branch at `(p, q)`. -/
theorem branch_apply (X : FVec Ideal S50000x128 .f32) (W : FVec Ideal S128x128 .f32) (b : FVec Ideal S128 .f32)
    (p : Fin 50000) (q : Fin 128) :
    branch X W b (ix2 p q)
      = Cert.Spec.lk ((∑ k : Fin 128, X (ix2 p k) * transpose S128x128 [1, 0] W transposes_S128x128_S128x128_1_0 (ix2 k q)) + b (ix1 q)) := by
  unfold branch
  rw [lkV_apply, addf_apply]
  have hd : Host.dotGeneral dot_S50000x128_S128x128_S50000x128_1_0_0_1_n_n none X
        (transpose S128x128 [1, 0] W transposes_S128x128_S128x128_1_0) (ix2 p q)
      = ∑ k : Fin 128, X (ix2 p k) * transpose S128x128 [1, 0] W transposes_S128x128_S128x128_1_0 (ix2 k q) :=
    Cert.LibHostRows.dotGeneral_plain_apply 50000 128 128 .single X _ p q
  have hb : broadcastInDim S50000x128 ![0, 1] bcast_S1x128_S50000x128_0_1 (broadcastInDim S1x128 ![1] bcast_S128_S1x128_1 b) (ix2 p q)
      = b (ix1 q) :=
    (Cert.LibHostRows.bcast_row_apply bcast_S1x128_S50000x128_0_1 _ p q).trans
      (Cert.LibHostRows.bcast_vec_row_apply bcast_S128_S1x128_1 b (0 : Fin 1) q)
  rw [hd, hb]

/-- The reference's term over any aggregate is the specification over it. -/
theorem outOf_eq (E H : FVec Ideal S50000x128 .f32) (W1 : FVec Ideal S128x128 .f32) (b1 : FVec Ideal S128 .f32)
    (W2 : FVec Ideal S128x128 .f32) (b2 : FVec Ideal S128 .f32) :
    outOf E H W1 b1 W2 b2
      = Cert.Spec.G E H (transpose S128x128 [1, 0] W1 transposes_S128x128_S128x128_1_0)
          (transpose S128x128 [1, 0] W2 transposes_S128x128_S128x128_1_0) b1 b2 := by
  funext i
  obtain ⟨p, q, rfl⟩ : ∃ (p : Fin 50000) (q : Fin 128), i = ix2 p q := ⟨i 0, i 1, eq_ix2 i⟩
  unfold outOf
  rw [addf_apply, branch_apply, branch_apply, Cert.Spec.G_apply]
  unfold Cert.Spec.entry
  simp only [mulf_apply]

end Cert.ReferenceIdeal.RefValue

end
-- ==== Proof.lean ====
/-
  The certificate of the fused two-branch layer against its reference.

  Both programs first form the neighbourhood aggregate `H` of the embedding table `E` along the edge lists (gather the
  source rows, add them into a zero table at the destination rows) by the same host operations, and both end at

      leaky (H · W₁ᵀ + b₁)  +  leaky ((E ∘ H) · W₂ᵀ + b₂),        leaky s = s where s ≥ 0, else f32(0.01) · s.

  The kernel does the second line block by block: twenty-five row blocks of 2000, the weights transposed and narrowed to
  bf16 and the biases made rows by the host beforehand, each matrix product into a zero accumulator. Over the extended
  reals the narrowing is the identity and a product into zero is the plain sum over the contracted coordinate, so entry
  `(2000 t + p, q)` of block `t` is that formula's entry; the blocks tile the 50000 rows. The reference applies the same
  formula to whole arrays. No law of arithmetic beyond reading each operation at an entry is used, so the precondition is
  never opened. The idealized kernel is the kernel's own text read at the ideal instance: nothing to preserve.
-/
import proofs.«158843_j12524124636045_1_alg».proof.Defs
import proofs.«158843_j12524124636045_1_alg».proof.Proof.Gen.Kernel
import proofs.«158843_j12524124636045_1_alg».proof.Proof.Gen.Kernel.Skeleton
import proofs.«158843_j12524124636045_1_alg».proof.Proof.Gen.Kernel.Launch
import proofs.«158843_j12524124636045_1_alg».proof.Proof.Gen.Kernel.Points
import proofs.«158843_j12524124636045_1_alg».proof.Proof.Gen.Kernel.Frame
import proofs.«158843_j12524124636045_1_alg».proof.Proof.Gen.KernelIdeal
import proofs.«158843_j12524124636045_1_alg».proof.Proof.Gen.KernelIdeal.Skeleton
import proofs.«158843_j12524124636045_1_alg».proof.Proof.Gen.KernelIdeal.Launch
import proofs.«158843_j12524124636045_1_alg».proof.Proof.Gen.KernelIdeal.Points
import proofs.«158843_j12524124636045_1_alg».proof.Proof.Gen.KernelIdeal.Frame
import proofs.«158843_j12524124636045_1_alg».proof.Proof.Gen.KernelIdeal.Value
import proofs.«158843_j12524124636045_1_alg».proof.Proof.Gen.ReferenceIdeal
import proofs.«158843_j12524124636045_1_alg».proof.Proof.Gen.Pre_finite_inputs
import proofs.«158843_j12524124636045_1_alg».proof.Proof.KernelValue
import proofs.«158843_j12524124636045_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The two programs spell the aggregate with dimension records that are the same records. -/
theorem agg_same (E : FVec Ideal Cert.Spec.SN .f32) (src dst : IVec Cert.Spec.SE 32) :
    Cert.ReferenceIdeal.RefRun.aggR E src dst = Cert.KernelIdeal.KVal.aggK E src dst := rfl

/-- Both runs end at the specification of the (agreeing) arguments. -/
theorem algebraic : Cert.algebraic_KernelIdeal_ReferenceIdeal := by
  intro m ρ m' ρ' _ hagree
  refine ⟨fun c => Cert.KernelIdeal.KVal.Gk m c, Cert.KernelIdeal.KVal.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6⟩ := hagree c
  rw [h0, h1, h2, h3, h4, h5, h6]
  unfold Cert.ReferenceIdeal.RefRun.out
  rw [Cert.ReferenceIdeal.RefValue.outOf_eq, agg_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
